-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S640000 32) (main_arg2 : IVec S640000 32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S640000x128 : Shape := ⟨2, ![640000, 128]⟩
abbrev S1x128 : Shape := ⟨2, ![1, 128]⟩
abbrev S5000x128 : Shape := ⟨2, ![5000, 128]⟩

abbrev nBuf : Space → Nat
  | .hbm => 45
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S640000, .f32⟩
  | .hbm, ⟨9, _⟩ => ⟨S_, .f32⟩
  | .hbm, ⟨10, _⟩ => ⟨S100000, .f32⟩
  | .hbm, ⟨11, _⟩ => ⟨S640000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S100000x128, .f32⟩
  | .hbm, ⟨25, _⟩ => ⟨S100000x128, .f32⟩
  | .hbm, ⟨26, _⟩ => ⟨S_, .i32⟩
  | .hbm, ⟨27, _⟩ => ⟨S640000, .i32⟩
  | .hbm, ⟨28, _⟩ => ⟨S640000, .i1⟩
  | .hbm, ⟨29, _⟩ => ⟨S_, .i32⟩
  | .hbm, ⟨30, _⟩ => ⟨S640000, .i32⟩
  | .hbm, ⟨31, _⟩ => ⟨S640000, .i32⟩
  | .hbm, ⟨32, _⟩ => ⟨S640000, .i32⟩
  | .hbm, ⟨33, _⟩ => ⟨S640000x1, .i32⟩
  | .hbm, ⟨34, _⟩ => ⟨S640000x128, .f32⟩
  | .hbm, ⟨35, _⟩ => ⟨S_, .f32⟩
  | .hbm, ⟨36, _⟩ => ⟨S100000x128, .f32⟩
  | .hbm, ⟨37, _⟩ => ⟨S640000x1, .i32⟩
  | .hbm, ⟨38, _⟩ => ⟨S100000x128, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S1x128, .f32⟩
  | .hbm, ⟨44, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x128_S5000x128_1_1_0_0_n_n_wf : DotDims.WF S5000x128 S128x128 S5000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S640000x128 : Shape := ⟨2, ![640000, 128]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S640000, .f32⟩
  | .hbm, ⟨9, _⟩ => ⟨S_, .f32⟩
  | .hbm, ⟨10, _⟩ => ⟨S100000, .f32⟩
  | .hbm, ⟨11, _⟩ => ⟨S640000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S_, .i32⟩
  | .hbm, ⟨43, _⟩ => ⟨S640000, .i32⟩
  | .hbm, ⟨44, _⟩ => ⟨S640000, .i1⟩
  | .hbm, ⟨45, _⟩ => ⟨S_, .i32⟩
  | .hbm, ⟨46, _⟩ => ⟨S640000, .i32⟩
  | .hbm, ⟨47, _⟩ => ⟨S640000, .i32⟩
  | .hbm, ⟨48, _⟩ => ⟨S640000, .i32⟩
  | .hbm, ⟨49, _⟩ => ⟨S640000x1, .i32⟩
  | .hbm, ⟨50, _⟩ => ⟨S640000x128, .f32⟩
  | .hbm, ⟨51, _⟩ => ⟨S_, .f32⟩
  | .hbm, ⟨52, _⟩ => ⟨S100000x128, .f32⟩
  | .hbm, ⟨53, _⟩ => ⟨S640000x1, .i32⟩
  | .hbm, ⟨54, _⟩ => ⟨S100000x128, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S128x128, .f32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S100000x128, .f32⟩
  | .hbm, ⟨63, _⟩ => ⟨S128x128, .f32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_v15 : Ref sig .tc := ⟨.hbm, 31, rfl⟩
abbrev main_cst_6 : Ref sig .tc := ⟨.hbm, 32, rfl⟩
abbrev main_v16 : Ref sig .tc := ⟨.hbm, 33, rfl⟩
abbrev main_v17 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c : Ref sig .tc := ⟨.hbm, 42, rfl⟩
abbrev main_v22 : Ref sig .tc := ⟨.hbm, 43, rfl⟩
abbrev main_v23 : Ref sig .tc := ⟨.hbm, 44, rfl⟩
abbrev main_c_8 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_9 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  What both programs compute after the graph aggregation, as ONE function of the arrays, index by index.

  With `x` the node features, `r` the degree-normalised aggregated messages (a function of `x` and of the two edge
  index arrays which neither program's projection stage looks inside), `ws`, `bs` the skip path's weights and bias
  and `wm`, `bm` the message path's, the layer's output at node `p` and output feature `q` is

      (∑ k, r (p, k) · wm (q, k) + bm q) + (∑ k, x (p, k) · ws (q, k) + bs q),

  that is `(r · wmᵀ + bm) + (x · wsᵀ + bs)`, on the extended reals. No law of arithmetic is needed to set the two
  programs side by side: both form exactly these two sums and these three additions in this grouping, the kernel
  reading each weight matrix in row `q`, the reference reading its transpose in column `q`.
-/
import Idealize.ShloMosaic.Lib.ValueIdx
import Idealize.ShloMosaic.PureOps.Ideal

open scoped BigOperators

noncomputable section

namespace Cert.Combine

open Idealize.ShloMosaic Idealize.ShloMosaic.ValueIdx

/-- The node-by-feature arrays, a weight matrix, a bias. -/
abbrev Nodes : Shape := ⟨2, ![100000, 128]⟩
abbrev Weights : Shape := ⟨2, ![128, 128]⟩
abbrev Bias : Shape := ⟨1, ![128]⟩

/-- The output at node `p`, feature `q`. -/
def combineAt (x r : Nodes.Idx → EReal) (ws : Weights.Idx → EReal) (bs : Bias.Idx → EReal) (wm : Weights.Idx → EReal)
    (bm : Bias.Idx → EReal) (p : Fin 100000) (q : Fin 128) : EReal :=
  (∑ k : Fin 128, r (ix2 p k) * wm (ix2 q k) + bm (ix1 q)) + (∑ k : Fin 128, x (ix2 p k) * ws (ix2 q k) + bs (ix1 q))

/-- The whole output array. -/
def combine (x r : Nodes.Idx → EReal) (ws : Weights.Idx → EReal) (bs : Bias.Idx → EReal) (wm : Weights.Idx → EReal)
    (bm : Bias.Idx → EReal) : Nodes.Idx → EReal :=
  fun i => combineAt x r ws bs wm bm (i 0) (i 1)

theorem combine_apply (x r : Nodes.Idx → EReal) (ws : Weights.Idx → EReal) (bs : Bias.Idx → EReal)
    (wm : Weights.Idx → EReal) (bm : Bias.Idx → EReal) (p : Fin 100000) (q : Fin 128) :
    combine x r ws bs wm bm (ix2 p q) = combineAt x r ws bs wm bm p q := rfl

end Cert.Combine

end
-- ==== Proof.RefCombine.lean ====
/-
  The reference's last stage is the specification's function.

  After the aggregation the reference transposes each weight matrix, multiplies (`dot_general`, the left operand's
  second axis against the transposed matrix's first), adds the bias broadcast along the nodes, and adds the two
  paths. Read at node `p` and feature `q`: the transposed matrix at `(k, q)` is the matrix at `(q, k)`, the bias row at
  `(0, q)` is the bias at `q`, so the entry is `(∑ k, r (p, k) · wm (q, k) + bm q) + (∑ k, x (p, k) · ws (q, k) + bs q)`
  with `r` the aggregation's own result, left as the stage it is.
-/
import proofs.«134190_j7327214207511_1_alg».proof.Proof.RefReadP
import proofs.«134190_j7327214207511_1_alg».proof.Proof.Spec

open scoped BigOperators

noncomputable section

namespace Cert.ReferenceIdeal.Combine

open Cert.ReferenceIdeal Cert.ReferenceIdeal.Gen Cert.ReferenceIdeal.ReadP Idealize.ShloMosaic Idealize.ShloMosaic.TcCoe
open Idealize.ShloMosaic.ValueIdx Cert.Combine

/-- The message path's left operand is read at `(p, k)` … -/
theorem lidx_msg (p : Fin 100000) (q k : Fin 128) : lidx_main_v36 (ix2 p q) k = ix2 p k :=
  funext fun a => Fin.ext (by match a with | ⟨0, _⟩ => rfl | ⟨1, _⟩ => rfl)
/-- … and its transposed weights at `(k, q)`, that is the weights at `(q, k)`. -/
theorem ridx_msg (p : Fin 100000) (q k : Fin 128) : idx_main_v35 (ridx_main_v36 (ix2 p q) k) = ix2 q k :=
  funext fun a => Fin.ext (by match a with | ⟨0, _⟩ => rfl | ⟨1, _⟩ => rfl)
/-- The same for the skip path. -/
theorem lidx_skip (p : Fin 100000) (q k : Fin 128) : lidx_main_v41 (ix2 p q) k = ix2 p k :=
  funext fun a => Fin.ext (by match a with | ⟨0, _⟩ => rfl | ⟨1, _⟩ => rfl)
theorem ridx_skip (p : Fin 100000) (q k : Fin 128) : idx_main_v40 (ridx_main_v41 (ix2 p q) k) = ix2 q k :=
  funext fun a => Fin.ext (by match a with | ⟨0, _⟩ => rfl | ⟨1, _⟩ => rfl)
/-- The bias, made a row and repeated along the nodes, is read at `q`. -/
theorem bias_msg (p : Fin 100000) (q : Fin 128) : idx_main_v37 (idx_main_v38 (ix2 p q)) = ix1 q :=
  funext fun a => Fin.ext (by match a with | ⟨0, _⟩ => rfl)
theorem bias_skip (p : Fin 100000) (q : Fin 128) : idx_main_v42 (idx_main_v43 (ix2 p q)) = ix1 q :=
  funext fun a => Fin.ext (by match a with | ⟨0, _⟩ => rfl)

/-- The reference's result, as its last stage states it, is `combine` of the arguments and of the aggregation's stage. -/
theorem result_eq (x0 : (⟨S100000x128, .f32⟩ : BufTy).Contents (Elt Ideal)) (x1 x2 : (⟨S640000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    val_main_v45 (F := Ideal) x0 x1 x2 x3 x4 x5 x6
      = combine x0 (val_main_v34 (F := Ideal) x0 x1 x2) x3 x4 x5 x6 := by
  funext i
  obtain ⟨p, q, rfl⟩ : ∃ (p : Fin 100000) (q : Fin 128), i = ix2 p q := ⟨i 0, i 1, eq_ix2 i⟩
  rw [val_main_v45_apply, val_main_v39_apply, val_main_v44_apply, val_main_v36_apply, val_main_v41_apply,
    val_main_v38_apply, val_main_v43_apply, val_main_v37_apply, val_main_v42_apply, bias_msg, bias_skip,
    combine_apply]
  simp only [val_main_v35_apply, val_main_v40_apply, lidx_msg, ridx_msg, lidx_skip, ridx_skip]
  rfl

end Cert.ReferenceIdeal.Combine

end
-- ==== Proof.LibRowDot.lean ====
/-
  A matrix product whose right operand is stored row by row for the RESULT's columns, `[M, K] × [N, K] → [M, N]`,
  read at one element at the ideal values, at any extents.

  Both operands are contracted along their SECOND axis and there is no batch axis: it is `x · wᵀ` computed without
  forming the transpose. Element `(p, q)` of the product is `∑ k, lhs (p, k) · rhs (q, k)` on the extended reals: row
  `p` of the left operand against row `q` of the right one, `k` running over the `K` positions of the contracted
  axis. The dimension numbers enter through equations on their lists, so that a program's own record, whose lists
  are literals, supplies each of them by `rfl`.
-/
import Idealize.ShloMosaic.Lib.ValueIdx
import Idealize.ShloMosaic.PureOps.Ideal.Laws

open scoped BigOperators

namespace Idealize.ShloMosaic.RowDot

open Idealize.ShloMosaic Idealize.ShloMosaic.ValueIdx

variable {M K N : Nat} (d : DotDims ⟨2, ![M, K]⟩ ⟨2, ![N, K]⟩ ⟨2, ![M, N]⟩)

/-- An index read at two positions that are the same number has the same coordinate (a position of the result is a
    sum of list lengths, which only the equations on the lists evaluate). -/
private theorem coord_of_pos_eq {s : Shape} (j : s.Idx) {a b : Nat} (ha : a < s.rank) (hb : b < s.rank) (h : a = b) :
    (j ⟨a, ha⟩).val = (j ⟨b, hb⟩).val := by
  subst h; rfl

/-- The left operand is read in the result's row: its first axis is the one kept axis of the left side, and the
    result lists it first. -/
theorem lhs_kept (hlb : d.lhsBatch = []) (hln : d.lhsNonContracting = [0]) (j : (⟨2, ![M, N]⟩ : Shape).Idx)
    (k : d.contr.Idx) : (d.lhsIdx j k 0).val = (j 0).val := by
  unfold DotDims.lhsIdx
  rw [dif_neg (by rw [hlb]; exact List.not_mem_nil),
    dif_pos (show (0 : Fin 2) ∈ d.lhsNonContracting by rw [hln]; exact List.mem_singleton.mpr rfl)]
  simp only [Fin.val_cast]
  exact coord_of_pos_eq j _ _ (by simp [hlb, hln])

/-- The left operand's second axis is the contracted one. -/
theorem lhs_contracted (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand is read in the row numbered by the result's COLUMN: its first axis is the one kept axis of the
    right side, which the result lists after the left side's. -/
theorem rhs_kept (hlb : d.lhsBatch = []) (hrb : d.rhsBatch = []) (hln : d.lhsNonContracting = [0])
    (hrn : d.rhsNonContracting = [0]) (j : (⟨2, ![M, N]⟩ : Shape).Idx) (k : d.contr.Idx) :
    (d.rhsIdx j k 0).val = (j 1).val := by
  unfold DotDims.rhsIdx
  rw [dif_neg (by rw [hrb]; exact List.not_mem_nil),
    dif_pos (show (0 : Fin 2) ∈ d.rhsNonContracting by rw [hrn]; exact List.mem_singleton.mpr rfl)]
  simp only [Fin.val_cast]
  exact coord_of_pos_eq j _ _ (by simp [hlb, hln, hrn])

/-- The right operand's second axis is the contracted one too. -/
theorem rhs_contracted (hrc : d.rhsContracting = [1]) (j : (⟨2, ![M, N]⟩ : Shape).Idx) (k : d.contr.Idx) :
    (d.rhsIdx j k 1).val = (k ⟨0, by rw [d.rank_contr, ← d.length_contracting, hrc]; exact Nat.one_pos⟩).val :=
  d.rhsIdx_val_of_single hrc j k

section Sum

variable (hlb : d.lhsBatch = []) (hrb : d.rhsBatch = []) (hln : d.lhsNonContracting = [0])
  (hrn : d.rhsNonContracting = [0]) (hlc : d.lhsContracting = [1]) (hrc : d.rhsContracting = [1])
  (hr : d.contr.rank = 1) (hs : d.contr.size ⟨0, by omega⟩ = K)

include hlb hrb hln hrn hlc hrc hr hs

/-- The contraction's sum over the contracted shape's indices is the sum over the `K` positions of the shared axis,
    each operand read in its own row: the index set carried across by the position's own bijection. -/
theorem sum_rows (lhs : (⟨2, ![M, K]⟩ : Shape).Idx → EReal) (rhs : (⟨2, ![N, K]⟩ : Shape).Idx → EReal) (p : Fin M)
    (q : Fin N) :
    ∑ k : d.contr.Idx, lhs (d.lhsIdx (ix2 p q) k) * rhs (d.rhsIdx (ix2 p q) k)
      = ∑ k : Fin K, lhs (ix2 p k) * rhs (ix2 q k) := by
  refine Fintype.sum_equiv (contrEquiv1 d K hr hs) _ _ fun k => ?_
  have el : d.lhsIdx (ix2 p q) k = ix2 p (contrEquiv1 d K hr hs k) := by
    funext a; refine Fin.ext ?_
    match a with
    | ⟨0, _⟩ => exact lhs_kept d hlb hln _ _
    | ⟨1, _⟩ => exact lhs_contracted d hlc _ _
  have er : d.rhsIdx (ix2 p q) k = ix2 q (contrEquiv1 d K hr hs k) := by
    funext a; refine Fin.ext ?_
    match a with
    | ⟨0, _⟩ => exact rhs_kept d hlb hrb hln hrn _ _
    | ⟨1, _⟩ => exact rhs_contracted d hrc _ _
  rw [el, er]

/-- A kernel's `tpu.matmul` of this shape into the zero splat, at `(p, q)`: rows against rows. -/
theorem matmul_zero_apply {φ₁ φ₂ : FTy} (prec : Option ContractPrecision) (lhs : FVec Ideal ⟨2, ![M, K]⟩ φ₁)
    (rhs : FVec Ideal ⟨2, ![N, K]⟩ φ₂) (p : Fin M) (q : Fin N) :
    matmul d prec lhs rhs (constant ⟨2, ![M, N]⟩ .f32 0x00000000#32) (ix2 p q)
      = ∑ k : Fin K, lhs (ix2 p k) * rhs (ix2 q k) := by
  show FloatOps.matmul d prec lhs rhs (constant ⟨2, ![M, N]⟩ .f32 0x00000000#32) (ix2 p q) = _
  rw [Ideal.matmul_constant_zero_apply]
  exact sum_rows d hlb hrb hln hrn hlc hrc hr hs lhs rhs p q

end Sum

end Idealize.ShloMosaic.RowDot
-- ==== Proof.KernelEntry.lean ====
/-
  One entry of what the kernel body stores, at the ideal values.

  The body loads a block of `feats` rows (`x`), the same rows of the aggregated messages (`r`), the two weight
  matrices whole (`wm` for the messages, `ws` for the skip path) and the two biases as `1 × 128` rows (`bm`, `bs`),
  and stores `(r · wmᵀ + bm) + (x · wsᵀ + bs)`. At the ideal values the narrowing of the matmul operands to bf16 is
  the identity and a matmul into the zero accumulator is the plain sum, so entry `(p, q)` of the stored block is

      (∑ k, r (p, k) · wm (q, k) + bm (0, q)) + (∑ k, x (p, k) · ws (q, k) + bs (0, q)),

  each weight matrix read in ROW `q`: the product contracts the second axis of both operands.
-/
import proofs.«134190_j7327214207511_1_alg».proof.Proof.Gen.KernelIdeal.Skeleton
import proofs.«134190_j7327214207511_1_alg».proof.Proof.LibRowDot
import Idealize.ShloMosaic.Lib.ValueIdx
import Idealize.ShloMosaic.Lib.ValueLayout
import Idealize.ShloMosaic.Lib.Pipeline.Value

open scoped BigOperators

noncomputable section

namespace Cert.KernelIdeal.Combine

open Cert.KernelIdeal Cert.KernelIdeal.Gen Idealize.ShloMosaic Idealize.ShloMosaic.TcCoe Idealize.ShloMosaic.ValueIdx

/-- The two matmuls of the body at `(p, q)`: rows of the left operand against rows of the weight matrix. -/
theorem proj_entry (a : FVec Ideal S5000x128 .bf16) (w : FVec Ideal S128x128 .bf16) (p : Fin 5000) (q : Fin 128) :
    matmul dot_S5000x128_S128x128_S5000x128_1_1_0_0_n_n none a w (constant S5000x128 .f32 0x00000000#32) (ix2 p q)
      = ∑ k : Fin 128, a (ix2 p k) * w (ix2 q k) :=
  RowDot.matmul_zero_apply dot_S5000x128_S128x128_S5000x128_1_1_0_0_n_n rfl rfl rfl rfl rfl rfl rfl rfl none a w p q

/-- Entry `(p, q)` of the stored block, from the loaded blocks. -/
theorem stored_entry (x r : Vec Ideal S5000x128 .f32) (wm : Vec Ideal S128x128 .f32) (bm : Vec Ideal S1x128 .f32)
    (ws : Vec Ideal S128x128 .f32) (bs : Vec Ideal S1x128 .f32) (p : Fin 5000) (q : Fin 128) :
    k0_pay1 (F := Ideal) x r wm bm ws bs (ix2 p q)
      = (∑ k : Fin 128, r (ix2 p k) * wm (ix2 q k) + bm (ix2 (0 : Fin 1) q))
        + (∑ k : Fin 128, x (ix2 p k) * ws (ix2 q k) + bs (ix2 (0 : Fin 1) q)) := by
  unfold k0_pay1
  simp only [addf_apply, shapeCast_self]
  rw [proj_entry, proj_entry, broadcastTo_1b_ab_apply, broadcastTo_1b_ab_apply]
  rfl

end Cert.KernelIdeal.Combine

end
-- ==== Proof.KernelReads.lean ====
/-
  Where each staged block sits in its array, at a point of the 20-point grid.

  Point `t` stages rows `5000·t … 5000·t + 4999` of the node features and of the aggregated messages, all of both
  weight matrices and all of both bias rows, and its output block is rows `5000·t …` of the output. So with `i` the
  output's own array index of the block entry `(p, q)` (row `5000·t + p`, column `q`): row `p` of a staged node block is
  row `i 0` of its array, row `q` of a staged weight matrix is row `i 1` of the matrix, and entry `(0, q)` of a staged
  bias row is the row's entry `(0, i 1)`. Nothing here touches arithmetic: it holds for every float family.
-/
import proofs.«134190_j7327214207511_1_alg».proof.Proof.Gen.KernelIdeal.Frame
import Idealize.ShloMosaic.Lib.ValueIdx

set_option Elab.async false

noncomputable section

namespace Cert.KernelIdeal.Combine

open Cert.KernelIdeal Cert.KernelIdeal.Gen Idealize.ShloMosaic Idealize.ShloMosaic.TcCoe Idealize.SL.Sem
open Idealize.ShloMosaic.ValueIdx

variable {F : FTy → Type} [FloatOps F] (m : (ℓ : Loc nD τ sig) → Buf (Elt F) ℓ)

/-- The printed index maps over the 20 points: the two node arrays move with the output (block row `t`, block column
    0), the weights and the bias rows stay at block `(0, 0)`. -/
theorem index_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of the staged node features is the features' row that the output's array index names. -/
theorem read_feats (c : Dev nD) (t : Fin cfg0.N) (p : Fin 5000) (q k : Fin 128) :
    iblk m c 0 t (ix2 p k) = V m c main_arg0 (ix2 ((((cfg0.win 6).blk t).view.emb (ix2 p q)) 0) k) := by
  obtain ⟨e00, e01, e10, e11, e20, e21, e30, e31, e40, e41, e50, e51, e60, e61⟩ := index_facts t
  have h : (((cfg0.win 0).blk t).view.emb (ix2 p k) : S100000x128.Idx) = ix2 ((((cfg0.win 6).blk t).view.emb (ix2 p q)) 0) k :=
    funext fun a => Fin.ext (by
      match a with
      | ⟨0, _⟩ => show win0_0.index t (0 : Fin 2) * 5000 + 1 * p.val = win0_6.index t (0 : Fin 2) * 5000 + 1 * p.val; omega
      | ⟨1, _⟩ => show win0_0.index t (1 : Fin 2) * 128 + 1 * k.val = k.val; omega)
  show V m c main_arg0 (((cfg0.win 0).blk t).view.emb (ix2 p k)) = V m c main_arg0 (ix2 ((((cfg0.win 6).blk t).view.emb (ix2 p q)) 0) k)
  exact congrArg (fun z : S100000x128.Idx => V m c main_arg0 z) h

/-- The same rows of the aggregated messages. -/
theorem read_msgs (c : Dev nD) (t : Fin cfg0.N) (p : Fin 5000) (q k : Fin 128) :
    iblk m c 1 t (ix2 p k) = V m c main_v24 (ix2 ((((cfg0.win 6).blk t).view.emb (ix2 p q)) 0) k) := by
  obtain ⟨e00, e01, e10, e11, e20, e21, e30, e31, e40, e41, e50, e51, e60, e61⟩ := index_facts t
  have h : (((cfg0.win 1).blk t).view.emb (ix2 p k) : S100000x128.Idx) = ix2 ((((cfg0.win 6).blk t).view.emb (ix2 p q)) 0) k :=
    funext fun a => Fin.ext (by
      match a with
      | ⟨0, _⟩ => show win0_1.index t (0 : Fin 2) * 5000 + 1 * p.val = win0_6.index t (0 : Fin 2) * 5000 + 1 * p.val; omega
      | ⟨1, _⟩ => show win0_1.index t (1 : Fin 2) * 128 + 1 * k.val = k.val; omega)
  show V m c main_v24 (((cfg0.win 1).blk t).view.emb (ix2 p k)) = V m c main_v24 (ix2 ((((cfg0.win 6).blk t).view.emb (ix2 p q)) 0) k)
  exact congrArg (fun z : S100000x128.Idx => V m c main_v24 z) h

/-- The message weights are staged whole: row `q` of the block is row `q` of the matrix, `q` the output's column. -/
theorem read_wmsg (c : Dev nD) (t : Fin cfg0.N) (p : Fin 5000) (q k : Fin 128) :
    iblk m c 2 t (ix2 q k) = V m c main_arg5 (ix2 ((((cfg0.win 6).blk t).view.emb (ix2 p q)) 1) k) := by
  obtain ⟨e00, e01, e10, e11, e20, e21, e30, e31, e40, e41, e50, e51, e60, e61⟩ := index_facts t
  have h : (((cfg0.win 2).blk t).view.emb (ix2 q k) : S128x128.Idx) = ix2 ((((cfg0.win 6).blk t).view.emb (ix2 p q)) 1) k :=
    funext fun a => Fin.ext (by
      match a with
      | ⟨0, _⟩ => show win0_2.index t (0 : Fin 2) * 128 + 1 * q.val = win0_6.index t (1 : Fin 2) * 128 + 1 * q.val; omega
      | ⟨1, _⟩ => show win0_2.index t (1 : Fin 2) * 128 + 1 * k.val = k.val; omega)
  show V m c main_arg5 (((cfg0.win 2).blk t).view.emb (ix2 q k)) = V m c main_arg5 (ix2 ((((cfg0.win 6).blk t).view.emb (ix2 p q)) 1) k)
  exact congrArg (fun z : S128x128.Idx => V m c main_arg5 z) h

/-- The skip weights likewise. -/
theorem read_wskip (c : Dev nD) (t : Fin cfg0.N) (p : Fin 5000) (q k : Fin 128) :
    iblk m c 4 t (ix2 q k) = V m c main_arg3 (ix2 ((((cfg0.win 6).blk t).view.emb (ix2 p q)) 1) k) := by
  obtain ⟨e00, e01, e10, e11, e20, e21, e30, e31, e40, e41, e50, e51, e60, e61⟩ := index_facts t
  have h : (((cfg0.win 4).blk t).view.emb (ix2 q k) : S128x128.Idx) = ix2 ((((cfg0.win 6).blk t).view.emb (ix2 p q)) 1) k :=
    funext fun a => Fin.ext (by
      match a with
      | ⟨0, _⟩ => show win0_4.index t (0 : Fin 2) * 128 + 1 * q.val = win0_6.index t (1 : Fin 2) * 128 + 1 * q.val; omega
      | ⟨1, _⟩ => show win0_4.index t (1 : Fin 2) * 128 + 1 * k.val = k.val; omega)
  show V m c main_arg3 (((cfg0.win 4).blk t).view.emb (ix2 q k)) = V m c main_arg3 (ix2 ((((cfg0.win 6).blk t).view.emb (ix2 p q)) 1) k)
  exact congrArg (fun z : S128x128.Idx => V m c main_arg3 z) h

/-- The message bias row is staged whole: its entry `(0, q)` is the row's entry at the output's column. -/
theorem read_bmsg (c : Dev nD) (t : Fin cfg0.N) (p : Fin 5000) (q : Fin 128) :
    iblk m c 3 t (ix2 (0 : Fin 1) q) = V m c main_v25 (ix2 (0 : Fin 1) ((((cfg0.win 6).blk t).view.emb (ix2 p q)) 1)) := by
  obtain ⟨e00, e01, e10, e11, e20, e21, e30, e31, e40, e41, e50, e51, e60, e61⟩ := index_facts t
  have h : (((cfg0.win 3).blk t).view.emb (ix2 (0 : Fin 1) q) : S1x128.Idx) = ix2 (0 : Fin 1) ((((cfg0.win 6).blk t).view.emb (ix2 p q)) 1) :=
    funext fun a => Fin.ext (by
      match a with
      | ⟨0, _⟩ => show win0_3.index t (0 : Fin 2) * 1 + 1 * 0 = 0; omega
      | ⟨1, _⟩ => show win0_3.index t (1 : Fin 2) * 128 + 1 * q.val = win0_6.index t (1 : Fin 2) * 128 + 1 * q.val; omega)
  show V m c main_v25 (((cfg0.win 3).blk t).view.emb (ix2 (0 : Fin 1) q)) = V m c main_v25 (ix2 (0 : Fin 1) ((((cfg0.win 6).blk t).view.emb (ix2 p q)) 1))
  exact congrArg (fun z : S1x128.Idx => V m c main_v25 z) h

/-- The skip bias row likewise. -/
theorem read_bskip (c : Dev nD) (t : Fin cfg0.N) (p : Fin 5000) (q : Fin 128) :
    iblk m c 5 t (ix2 (0 : Fin 1) q) = V m c main_v26 (ix2 (0 : Fin 1) ((((cfg0.win 6).blk t).view.emb (ix2 p q)) 1)) := by
  obtain ⟨e00, e01, e10, e11, e20, e21, e30, e31, e40, e41, e50, e51, e60, e61⟩ := index_facts t
  have h : (((cfg0.win 5).blk t).view.emb (ix2 (0 : Fin 1) q) : S1x128.Idx) = ix2 (0 : Fin 1) ((((cfg0.win 6).blk t).view.emb (ix2 p q)) 1) :=
    funext fun a => Fin.ext (by
      match a with
      | ⟨0, _⟩ => show win0_5.index t (0 : Fin 2) * 1 + 1 * 0 = 0; omega
      | ⟨1, _⟩ => show win0_5.index t (1 : Fin 2) * 128 + 1 * q.val = win0_6.index t (1 : Fin 2) * 128 + 1 * q.val; omega)
  show V m c main_v26 (((cfg0.win 5).blk t).view.emb (ix2 (0 : Fin 1) q)) = V m c main_v26 (ix2 (0 : Fin 1) ((((cfg0.win 6).blk t).view.emb (ix2 p q)) 1))
  exact congrArg (fun z : S1x128.Idx => V m c main_v26 z) h

end Cert.KernelIdeal.Combine

end
-- ==== Proof.KernelValue.lean ====
/-
  The kernel's output array after the run, at the ideal values, as the specification's function of the arrays the
  pallas_call is entered with.

  The grid has 20 points; point `t` works on rows `5000·t … 5000·t + 4999` of the node features and of the
  aggregated messages, sees both weight matrices and both bias rows whole, and writes rows `5000·t …` of the
  output. So what point `t` writes back is block `t` of ONE whole-array function (`outOf`): each loaded block is the
  rows and columns of its array that the output's own array index names. The 20 blocks tile the 100000 rows,
  hence the array ends holding that function everywhere.
-/
import proofs.«134190_j7327214207511_1_alg».proof.Proof.Gen.KernelIdeal.Value
import proofs.«134190_j7327214207511_1_alg».proof.Proof.KernelEntry
import proofs.«134190_j7327214207511_1_alg».proof.Proof.Spec
import proofs.«134190_j7327214207511_1_alg».proof.Proof.KernelReads

set_option Elab.async false

open scoped BigOperators

noncomputable section

namespace Cert.KernelIdeal.Combine

open Cert.KernelIdeal Cert.KernelIdeal.Gen Idealize.ShloMosaic Idealize.ShloMosaic.TcCoe Idealize.SL.Sem
open Idealize.ShloMosaic.ValueIdx Cert.Combine
open Idealize.ShloMosaic.Pipeline (Dat)

/-- A bias kept as a `1 × 128` row, read as an array over the 128 features. -/
def rowOf (b : S1x128.Idx → EReal) : Bias.Idx → EReal := fun j => b (ix2 (0 : Fin 1) (j 0 : Fin 128))

/-- Entry `(p, q)` of the stored block is the specification at the array index `i`, once every loaded block is known
    to hold the rows and columns of its array that `i` names: row `i 0` of the node arrays, row `i 1` of the weight
    matrices, column `i 1` of the bias rows. -/
theorem stored_is_combine (x r : Vec Ideal S5000x128 .f32) (wm : Vec Ideal S128x128 .f32) (bm : Vec Ideal S1x128 .f32)
    (ws : Vec Ideal S128x128 .f32) (bs : Vec Ideal S1x128 .f32)
    (X R : Nodes.Idx → EReal) (WS : Weights.Idx → EReal) (BS : S1x128.Idx → EReal) (WM : Weights.Idx → EReal)
    (BM : S1x128.Idx → EReal) (p : Fin 5000) (q : Fin 128) (i : Nodes.Idx)
    (hx : ∀ k : Fin 128, x (ix2 p k) = X (ix2 (i 0) k)) (hr : ∀ k : Fin 128, r (ix2 p k) = R (ix2 (i 0) k))
    (hwm : ∀ k : Fin 128, wm (ix2 q k) = WM (ix2 (i 1) k)) (hws : ∀ k : Fin 128, ws (ix2 q k) = WS (ix2 (i 1) k))
    (hbm : bm (ix2 (0 : Fin 1) q) = BM (ix2 (0 : Fin 1) (i 1)))
    (hbs : bs (ix2 (0 : Fin 1) q) = BS (ix2 (0 : Fin 1) (i 1))) :
    k0_pay1 (F := Ideal) x r wm bm ws bs (ix2 p q) = combine X R WS (rowOf BS) WM (rowOf BM) i := by
  rw [stored_entry]
  show _ = combineAt X R WS (rowOf BS) WM (rowOf BM) (i 0) (i 1)
  unfold combineAt rowOf
  simp only [hx, hr, hwm, hws, hbm, hbs]

variable (m : (ℓ : Loc nD τ sig) → Buf (Elt Ideal) ℓ) (ρ : Dev nD → PrngReg)

/-- The body's loads and its store go through whole-block rectangles: their offsets are zero. -/
theorem zero_offsets : (![0, 0] : Fin 2 → Nat) = fun _ => 0 := funext fun a => by fin_cases a <;> rfl

/-- The output array the run leaves on core `c`: the specification over the arrays as the pallas_call finds them — the
    node features, the aggregated messages (`main_v24`), the weight matrices and the two bias rows. -/
def outOf (c : Dev nD) : S100000x128.Idx → Elt Ideal .f32 :=
  combine (V m c main_arg0) (V m c main_v24) (V m c main_arg3) (rowOf (V m c main_v26)) (V m c main_arg5)
    (rowOf (V m c main_v25))

/-- WHAT POINT `t` WRITES BACK is block `t` of `outOf`. -/
theorem flushed_is_block (c : Dev nD) (t : Fin cfg0.N) :
    (dats m 0 c).flushed 6 t = ((cfg0.win 6).blk t).view.read (Elt Ideal) (outOf m c) := by
  rw [Cert.KernelIdeal.Value.flushed6]
  unfold out0_6
  rw [View.canon_unit_zero zero_offsets]
  simp only [View.ld_unit_zero (S := S5000x128) zero_offsets, View.ld_unit_zero (S := S128x128) zero_offsets,
    View.ld_unit_zero (S := S1x128) zero_offsets]
  funext j
  obtain ⟨p, q, rfl⟩ : ∃ (p : Fin 5000) (q : Fin 128), j = ix2 p q := ⟨j 0, j 1, eq_ix2 j⟩
  show k0_pay1 (F := Ideal) (iblk m c 0 t) (iblk m c 1 t) (iblk m c 2 t) (iblk m c 3 t) (iblk m c 4 t) (iblk m c 5 t) (ix2 p q)
      = outOf m c (((cfg0.win 6).blk t).view.emb (ix2 p q))
  exact stored_is_combine (iblk m c 0 t) (iblk m c 1 t) (iblk m c 2 t) (iblk m c 3 t) (iblk m c 4 t) (iblk m c 5 t)
    (V m c main_arg0) (V m c main_v24) (V m c main_arg3) (V m c main_v26) (V m c main_arg5) (V m c main_v25) p q
    (((cfg0.win 6).blk t).view.emb (ix2 p q))
    (fun k => read_feats m c t p q k) (fun k => read_msgs m c t p q k) (fun k => read_wmsg m c t p q k)
    (fun k => read_wskip m c t p q k) (read_bmsg m c t p q) (read_bskip m c t p q)

/-- An index of the output array is in point `t`'s block iff each coordinate is in the block's range on its axis. -/
theorem mem_block (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v27).slice (win0_6.rect t)).set ↔ _
  rw [View.set_slice_whole, Rect.mem_set_unit]
  exact Iff.rfl

/-- The 20 blocks of 5000 rows tile the 100000 rows: row `n` is in the block of point `n / 5000`. -/
theorem blocks_cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by omega⟩, rfl⟩
  obtain ⟨-, -, -, -, -, -, -, -, -, -, -, -, e60, e61⟩ := index_facts t
  refine ⟨t, flush0_6 t, ?_⟩
  rw [mem_block]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 128 ≤ (i 1).val ∧ (i 1).val < win0_6.index t (1 : Fin 2) * 128 + 128
    omega

/-- THE OUTPUT ARRAY after the run is `outOf`, everywhere. -/
theorem final_array (c : Dev nD) : (dats m 0 c).arrAt 6 cfg0.N = outOf m c :=
  (dats m 0 c).arrAt_eq_of_cover 6 (outOf m c) (fun t _ => flushed_is_block m c t) blocks_cover

/-- The kernel's run with its result named: the output array ends at `outOf`, the arguments as launched. -/
theorem run_combine : θ_run defs (onTc (τ := τ) (main (F := Ideal))) ⟨m, fun _ => 0, ρ⟩ fun r => ∀ c : Dev nD,
      r.2.mem ((c : Thread nD τ).loc main_v27) = outOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_array m c), (h c).2⟩)
    (Cert.KernelIdeal.Value.run_blocks m ρ)

end Cert.KernelIdeal.Combine

end
-- ==== Proof.KernelPrelude.lean ====
/-
  What the pallas_call finds in the arrays that @main computes before it.

  Before the call @main forms the out-degree of every node (a scatter-add of ones at the source indices), its
  inverse square root where positive and zero elsewhere, scales the features by it, gathers the scaled rows at the
  (wrapped) source indices, scatter-adds them at the destination indices and scales again: the aggregated messages
  `main_v24`. The reference program forms the same value by the same operations in the same order (its one extra
  chain, a clamped `rsqrt`, feeds nothing), so the array the call finds IS the reference's aggregation stage of the
  launch contents: the two composed terms are one term, whatever the float family. The two biases reach the call
  reshaped `[128] → [1, 128]`: entry `(0, q)` of the row is the bias at `q`.
-/
import proofs.«134190_j7327214207511_1_alg».proof.Proof.Gen.KernelIdeal.Frame
import proofs.«134190_j7327214207511_1_alg».proof.Proof.RefReadP
import Idealize.ShloMosaic.Lib.StableHlo.Run
import Idealize.ShloMosaic.Lib.Pipeline.Value
import Idealize.ShloMosaic.Lib.ValueIdx

noncomputable section

namespace Cert.KernelIdeal.Combine

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F] (m : (ℓ : Loc nD τ sig) → Buf (Elt F) ℓ)

set_option maxRecDepth 8192 in
set_option maxHeartbeats 4000000 in
/-- The aggregated messages the call finds are the reference's aggregation stage of the launch contents. -/
theorem entry_msgs (c : Dev nD) :
    (V m c main_v24 : S100000x128.Idx → Elt F .f32)
      = Cert.ReferenceIdeal.ReadP.val_main_v34 (F := F) (m ((c : Thread nD τ).loc main_arg0))
          (m ((c : Thread nD τ).loc main_arg1)) (m ((c : Thread nD τ).loc main_arg2)) := by
  dsimp only [V]
  simp only [hostOps0, hostOps0_1, hostOps0_2, List.flatten_cons, List.flatten_nil, List.append_nil, List.cons_append,
    List.nil_append]
  after_results_simp
  simp only [TRef.ofBuf, TRef.toBuf, cast_eq]
  rfl

/-- The message bias reaches the call as a `1 × 128` row whose entry `(0, q)` is the bias at `q`. -/
theorem entry_bias_msg (c : Dev nD) (q : Fin 128) :
    (V m c main_v25 : S1x128.Idx → Elt F .f32) (ix2 (0 : Fin 1) q)
      = (m ((c : Thread nD τ).loc main_arg6) : S128.Idx → Elt F .f32) (ix1 q) := by
  have e : (V m c main_v25 : S1x128.Idx → Elt F .f32)
      = shapeCast S1x128 (m ((c : Thread nD τ).loc main_arg6) : S128.Idx → Elt F .f32) shapeCasts_S128_S1x128 := by
    dsimp only [V]
    simp only [hostOps0, hostOps0_1, hostOps0_2, List.flatten_cons, List.flatten_nil, List.append_nil, List.cons_append,
      List.nil_append]
    after_results_simp
    rfl
  rw [e]
  refine (shapeCast_addUnit_apply (n := 1) ![128] _ _ (ix2 (0 : Fin 1) q)).trans ?_
  exact congrArg _ (funext fun a => by match a with | ⟨0, _⟩ => rfl)

/-- The skip bias likewise. -/
theorem entry_bias_skip (c : Dev nD) (q : Fin 128) :
    (V m c main_v26 : S1x128.Idx → Elt F .f32) (ix2 (0 : Fin 1) q)
      = (m ((c : Thread nD τ).loc main_arg4) : S128.Idx → Elt F .f32) (ix1 q) := by
  have e : (V m c main_v26 : S1x128.Idx → Elt F .f32)
      = shapeCast S1x128 (m ((c : Thread nD τ).loc main_arg4) : S128.Idx → Elt F .f32) shapeCasts_S128_S1x128 := by
    dsimp only [V]
    simp only [hostOps0, hostOps0_1, hostOps0_2, List.flatten_cons, List.flatten_nil, List.append_nil, List.cons_append,
      List.nil_append]
    after_results_simp
    rfl
  rw [e]
  refine (shapeCast_addUnit_apply (n := 1) ![128] _ _ (ix2 (0 : Fin 1) q)).trans ?_
  exact congrArg _ (funext fun a => by match a with | ⟨0, _⟩ => rfl)

end Cert.KernelIdeal.Combine

end
-- ==== Proof.Agree.lean ====
/-
  The kernel's output array as the specification over the LAUNCH contents.

  `outOf` is stated over the arrays as the pallas_call finds them. The arguments it stages reach it unchanged, the
  aggregated messages are the reference's aggregation stage of the launch contents, and each bias row read as an
  array over the features is the bias itself. So the kernel's output is `combine` of the seven arguments and of that
  one stage: the very term the reference's last stage is.
-/
import proofs.«134190_j7327214207511_1_alg».proof.Proof.KernelValue
import proofs.«134190_j7327214207511_1_alg».proof.Proof.KernelPrelude

set_option Elab.async false

noncomputable section

namespace Cert.KernelIdeal.Combine

open Cert.KernelIdeal Cert.KernelIdeal.Gen Idealize.ShloMosaic Idealize.ShloMosaic.TcCoe Idealize.SL.Sem
open Idealize.ShloMosaic.ValueIdx Cert.Combine

variable (m : (ℓ : Loc nD τ sig) → Buf (Elt Ideal) ℓ)

/-- The message bias row, read over the features, is the bias. -/
theorem rowOf_msg (c : Dev nD) : rowOf (V m c main_v25) = (m ((c : Thread nD τ).loc main_arg6) : S128.Idx → Elt Ideal .f32) :=
  funext fun j => (entry_bias_msg m c (j 0)).trans (congrArg (m ((c : Thread nD τ).loc main_arg6) : S128.Idx → Elt Ideal .f32) (eq_ix1 j).symm)

/-- The skip bias row, read over the features, is the bias. -/
theorem rowOf_skip (c : Dev nD) : rowOf (V m c main_v26) = (m ((c : Thread nD τ).loc main_arg4) : S128.Idx → Elt Ideal .f32) :=
  funext fun j => (entry_bias_skip m c (j 0)).trans (congrArg (m ((c : Thread nD τ).loc main_arg4) : S128.Idx → Elt Ideal .f32) (eq_ix1 j).symm)

/-- The kernel's output is the specification of the launch contents and of the aggregation stage. -/
theorem outOf_eq (c : Dev nD) :
    outOf m c = combine (m ((c : Thread nD τ).loc main_arg0))
      (Cert.ReferenceIdeal.ReadP.val_main_v34 (F := Ideal) (m ((c : Thread nD τ).loc main_arg0))
        (m ((c : Thread nD τ).loc main_arg1)) (m ((c : Thread nD τ).loc main_arg2)))
      (m ((c : Thread nD τ).loc main_arg3)) (m ((c : Thread nD τ).loc main_arg4))
      (m ((c : Thread nD τ).loc main_arg5)) (m ((c : Thread nD τ).loc main_arg6)) := by
  unfold outOf
  rw [rowOf_msg, rowOf_skip, entry_msgs, V_main_arg0, V_main_arg3, V_main_arg5]

end Cert.KernelIdeal.Combine

end
-- ==== Proof.lean ====
/-
  A graph-convolution layer: degree-normalised message aggregation, then two affine maps added.

  Both programs first form, on the host, the out-degree `deg` of every node (a scatter-add of ones at the source
  indices), `s = deg^(-1/2)` where `deg > 0` and `0` elsewhere, and the aggregated messages
  `r = s · scatter_add_dst (gather_src (s · feats))`, by the same operations in the same order. The kernel then runs one
  pallas_call over 20 blocks of 5000 nodes that stores `(r · wmᵀ + bm) + (feats · wsᵀ + bs)` for the block, each
  product a matmul that contracts the SECOND axis of both operands (the weights are never transposed), its operands
  narrowed to bf16 first; the reference transposes each weight matrix, multiplies with `dot_general`, and adds.

  At the ideal values a change of float format is the identity and both kinds of product are the plain sum over the
  contracted axis, so both programs end with the same array, entry by entry:

      out (p, q) = (∑ k, r (p, k) · wm (q, k) + bm q) + (∑ k, feats (p, k) · ws (q, k) + bs q)        (Spec.lean)

  — the same two sums and the same three additions in the same grouping, so no law of the extended reals is used
  and the finiteness of the inputs is never opened. The kernel's side: one stored entry (KernelEntry.lean, over the
  rows-against-rows product of LibRowDot.lean), where each staged block sits in its array (KernelReads.lean), the
  blocks tiling the output (KernelValue.lean), what the host prefix leaves for the call (KernelPrelude.lean), and the
  result over the launch contents (Agree.lean). The reference's side: its last stage read at an index
  (RefCombine.lean) over its run and its stages (RefRunP.lean, RefReadP.lean).

  The three frames are the programs' runs with the result dropped; nothing of the kernel was rewritten by the ideal
  pass, so `preserves` has nothing to state.
-/
import proofs.«134190_j7327214207511_1_alg».proof.Defs
import proofs.«134190_j7327214207511_1_alg».proof.Proof.Gen.Kernel
import proofs.«134190_j7327214207511_1_alg».proof.Proof.Gen.Kernel.Skeleton
import proofs.«134190_j7327214207511_1_alg».proof.Proof.Gen.Kernel.Launch
import proofs.«134190_j7327214207511_1_alg».proof.Proof.Gen.Kernel.Points
import proofs.«134190_j7327214207511_1_alg».proof.Proof.Gen.Kernel.Frame
import proofs.«134190_j7327214207511_1_alg».proof.Proof.Gen.KernelIdeal
import proofs.«134190_j7327214207511_1_alg».proof.Proof.Gen.KernelIdeal.Skeleton
import proofs.«134190_j7327214207511_1_alg».proof.Proof.Gen.KernelIdeal.Launch
import proofs.«134190_j7327214207511_1_alg».proof.Proof.Gen.KernelIdeal.Points
import proofs.«134190_j7327214207511_1_alg».proof.Proof.Gen.KernelIdeal.Frame
import proofs.«134190_j7327214207511_1_alg».proof.Proof.Gen.ReferenceIdeal
import proofs.«134190_j7327214207511_1_alg».proof.Proof.Gen.Pre_finite_inputs
import proofs.«134190_j7327214207511_1_alg».proof.Proof.Gen.KernelIdeal.Value
import proofs.«134190_j7327214207511_1_alg».proof.Proof.RefRunP
import proofs.«134190_j7327214207511_1_alg».proof.Proof.RefReadP
import proofs.«134190_j7327214207511_1_alg».proof.Proof.RefCombine
import proofs.«134190_j7327214207511_1_alg».proof.Proof.Agree
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference is a host program: its frame is its run with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- The ideal pass rewrote no operation of the kernel. -/
theorem preserves : Cert.preserves_Kernel_KernelIdeal := trivial

/-- From memories that agree on the seven arguments both programs end with `combine` of those arguments and of the
    aggregation stage: the kernel by the tiling of its output blocks, the reference by its last stage read at an index. -/
theorem algebraic : Cert.algebraic_KernelIdeal_ReferenceIdeal := by
  intro m ρ m' ρ' _ hagree
  refine ⟨fun c => Cert.KernelIdeal.Combine.outOf m c, Cert.KernelIdeal.Combine.run_combine m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6⟩ := hagree c
  rw [Cert.ReferenceIdeal.ReadP.val_main_v45_eq, Cert.ReferenceIdeal.Combine.result_eq, h0, h1, h2, h3, h4, h5, h6]
  exact (Cert.KernelIdeal.Combine.outOf_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
